-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x128 .f32) (main_arg9 : FVec F S64x128 .f32) (main_arg10 : FVec F S64 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S64x128 .f32) (main_arg9 : FVec F S64x128 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S64x128 .f32) (main_arg9 : FVec F S64x128 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S128x64 : Shape := ⟨2, ![128, 64]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 102
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S64x128, .f32⟩
  | .hbm, ⟨9, _⟩ => ⟨S64x128, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x64, .f32⟩
  | .hbm, ⟨20, _⟩ => ⟨S128x64, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S_, .f32⟩
  | .hbm, ⟨35, _⟩ => ⟨S1600000, .f32⟩
  | .hbm, ⟨36, _⟩ => ⟨S_, .f32⟩
  | .hbm, ⟨37, _⟩ => ⟨S100000, .f32⟩
  | .hbm, ⟨38, _⟩ => ⟨S1600000x1, .i32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x128, .f32⟩
  | .hbm, ⟨84, _⟩ => ⟨S_, .f32⟩
  | .hbm, ⟨85, _⟩ => ⟨S100000x128, .f32⟩
  | .hbm, ⟨86, _⟩ => ⟨S1600000x1, .i32⟩
  | .hbm, ⟨87, _⟩ => ⟨S100000x128, .f32⟩
  | .hbm, ⟨88, _⟩ => ⟨S_, .f32⟩
  | .hbm, ⟨89, _⟩ => ⟨S1600000, .f32⟩
  | .hbm, ⟨90, _⟩ => ⟨S_, .f32⟩
  | .hbm, ⟨91, _⟩ => ⟨S100000, .f32⟩
  | .hbm, ⟨92, _⟩ => ⟨S1600000x1, .i32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x128, .f32⟩
  | .hbm, ⟨99, _⟩ => ⟨S100000x128, .f32⟩
  | .hbm, ⟨100, _⟩ => ⟨S1x64, .f32⟩
  | .hbm, ⟨101, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_4 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_cst_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_15 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  transposes_S64x128_S128x64_1_0 : S64x128.Transposes [1, 0] S128x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v28) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v70) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S64x128, .f32⟩
  | .hbm, ⟨9, _⟩ => ⟨S64x128, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S128x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x128, .f32⟩
  | .hbm, ⟨96, _⟩ => ⟨S_, .f32⟩
  | .hbm, ⟨97, _⟩ => ⟨S100000x128, .f32⟩
  | .hbm, ⟨98, _⟩ => ⟨S1600000x1, .i32⟩
  | .hbm, ⟨99, _⟩ => ⟨S100000x128, .f32⟩
  | .hbm, ⟨100, _⟩ => ⟨S_, .f32⟩
  | .hbm, ⟨101, _⟩ => ⟨S1600000, .f32⟩
  | .hbm, ⟨102, _⟩ => ⟨S_, .f32⟩
  | .hbm, ⟨103, _⟩ => ⟨S100000, .f32⟩
  | .hbm, ⟨104, _⟩ => ⟨S1600000x1, .i32⟩
  | .hbm, ⟨105, _⟩ => ⟨S100000, .f32⟩
  | .hbm, ⟨106, _⟩ => ⟨S_, .f32⟩
  | .hbm, ⟨107, _⟩ => ⟨S100000, .f32⟩
  | .hbm, ⟨108, _⟩ => ⟨S100000, .f32⟩
  | .hbm, ⟨109, _⟩ => ⟨S100000x1, .f32⟩
  | .hbm, ⟨110, _⟩ => ⟨S100000x128, .f32⟩
  | .hbm, ⟨111, _⟩ => ⟨S100000x128, .f32⟩
  | .hbm, ⟨112, _⟩ => ⟨S128x64, .f32⟩
  | .hbm, ⟨113, _⟩ => ⟨S100000x64, .f32⟩
  | .hbm, ⟨114, _⟩ => ⟨S128x64, .f32⟩
  | .hbm, ⟨115, _⟩ => ⟨S100000x64, .f32⟩
  | .hbm, ⟨116, _⟩ => ⟨S100000x64, .f32⟩
  | .hbm, ⟨117, _⟩ => ⟨S1x64, .f32⟩
  | .hbm, ⟨118, _⟩ => ⟨S100000x64, .f32⟩
  | .hbm, ⟨119, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.TileMatmul.lean ====
/-
  The kernel's tile products read entry by entry.

  Each grid step multiplies a tile of 5000 rows (128 features) by a resident 128×128 or 128×64 weight
  matrix into a zero accumulator. Over the extended reals entry (r, c) of such a product is the plain sum
  Σ_k x[r, k] · w[k, c] over the 128 shared features: the accumulator contributes the zero it starts from
  and the contraction index of the product's dimension record is the feature index k.
-/
import proofs.«108933_j86199993631208_1_alg».proof.Proof.Gen.KernelIdeal
import Idealize.ShloMosaic.PureOps.Ideal.Laws
import Idealize.ShloMosaic.Lib.ValueIdx

noncomputable section

namespace Cert.KernelIdeal.Tile

open Cert.KernelIdeal Cert.KernelIdeal.Gen Idealize.ShloMosaic Idealize.ShloMosaic.ValueIdx

/-! ## The 5000×128 by 128×128 tile product (the two hidden layers) -/

theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (r, c) of the tile product into a zero accumulator is the sum over the 128 shared features of
    row r of the left factor times column c of the right factor. -/
theorem matmul128_at {φ₁ φ₂ : FTy} (x : FVec Ideal S5000x128 φ₁) (w : FVec Ideal S128x128 φ₂) (r : Fin 5000) (c : Fin 128) :
    matmul dot_S5000x128_S128x128_S5000x128_1_0_0_1_n_n none x w (constant S5000x128 .f32 0x00000000#32) (ix2 r c)
      = ∑ k : Fin 128, x (ix2 r k) * w (ix2 k c) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r c) ((ValueIdx.contrEquiv1 dot_S5000x128_S128x128_S5000x128_1_0_0_1_n_n 128 rfl rfl).symm k) = ix2 r k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 r c) ((ValueIdx.contrEquiv1 dot_S5000x128_S128x128_S5000x128_1_0_0_1_n_n 128 rfl rfl).symm k) = ix2 k c := funext fun a => Fin.ext (by
    match a with
    | ⟨0, _⟩ => exact (rhs128_0 _ _).trans hk
    | ⟨1, _⟩ => exact rhs128_1 _ _)
  rw [el, er]

/-! ## The 5000×128 by 128×64 tile product (the last layer) -/

theorem lhs64_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs64_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs64_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs64_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The same for the narrower product: entry (r, c), c among the 64 output features. -/
theorem matmul64_at {φ₁ φ₂ : FTy} (x : FVec Ideal S5000x128 φ₁) (w : FVec Ideal S128x64 φ₂) (r : Fin 5000) (c : Fin 64) :
    matmul dot_S5000x128_S128x64_S5000x64_1_0_0_1_n_n none x w (constant S5000x64 .f32 0x00000000#32) (ix2 r c)
      = ∑ k : Fin 128, x (ix2 r k) * w (ix2 k c) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 r c) ((ValueIdx.contrEquiv1 dot_S5000x128_S128x64_S5000x64_1_0_0_1_n_n 128 rfl rfl).symm k) = ix2 r k := funext fun a => Fin.ext (by
    match a with
    | ⟨0, _⟩ => exact lhs64_0 _ _
    | ⟨1, _⟩ => exact (lhs64_1 _ _).trans hk)
  have er : dot_S5000x128_S128x64_S5000x64_1_0_0_1_n_n.rhsIdx (ix2 r c) ((ValueIdx.contrEquiv1 dot_S5000x128_S128x64_S5000x64_1_0_0_1_n_n 128 rfl rfl).symm k) = ix2 k c := funext fun a => Fin.ext (by
    match a with
    | ⟨0, _⟩ => exact (rhs64_0 _ _).trans hk
    | ⟨1, _⟩ => exact rhs64_1 _ _)
  rw [el, er]

end Cert.KernelIdeal.Tile

end
-- ==== Proof.Spec.lean ====
/-
  One dense layer of a mean-aggregating graph convolution, entry by entry over the extended reals.

  For node features `h` (one row per node, 128 columns), the neighbour means `mean` (same shape), a
  neighbour weight matrix `wl` and a root weight matrix `wr` (128 rows, one column per output feature)
  and a bias row `b`, entry (r, c) of the layer before its activation is

      Σ_k mean[r, k] · wl[k, c]  +  Σ_k h[r, k] · wr[k, c]  +  b[0, c],

  two sums of 128 products each and one more term, added in this order. A hidden layer clamps this below
  at zero; the last layer does not. The number of rows and the number of output features are parameters:
  the same formula describes a tile of rows and the whole array, and row r of a tile that starts at row
  r₀ is row r₀ + r of the array (`affineAt_rows`): nothing in the formula looks at any other row.
-/
import Idealize.ShloMosaic.PureOps.Ideal
import Idealize.ShloMosaic.Lib.ValueIdx

noncomputable section

namespace Cert.Layer

open Idealize.ShloMosaic Idealize.ShloMosaic.ValueIdx

/-- Entry (r, c) of `mean · wl + h · wr + b`, the two products as sums over the 128 input features. -/
def affineAt {N D : Nat} (mean h : FVec Ideal ⟨2, ![N, 128]⟩ .f32) (wl wr : FVec Ideal ⟨2, ![128, D]⟩ .f32)
    (b : FVec Ideal ⟨2, ![1, D]⟩ .f32) (r : Fin N) (c : Fin D) : EReal :=
  (∑ k : Fin 128, mean (ix2 r k) * wl (ix2 k c)) + (∑ k : Fin 128, h (ix2 r k) * wr (ix2 k c)) + b (ix2 (0 : Fin 1) c)

/-- The last layer: the affine map alone. -/
def affine {N D : Nat} (mean h : FVec Ideal ⟨2, ![N, 128]⟩ .f32) (wl wr : FVec Ideal ⟨2, ![128, D]⟩ .f32)
    (b : FVec Ideal ⟨2, ![1, D]⟩ .f32) : FVec Ideal ⟨2, ![N, D]⟩ .f32 :=
  fun i => affineAt mean h wl wr b (i 0) (i 1)

/-- A hidden layer: the affine map clamped below at the f32 zero (kept as its word: both programs spell it so). -/
def affineRelu {N D : Nat} (mean h : FVec Ideal ⟨2, ![N, 128]⟩ .f32) (wl wr : FVec Ideal ⟨2, ![128, D]⟩ .f32)
    (b : FVec Ideal ⟨2, ![1, D]⟩ .f32) : FVec Ideal ⟨2, ![N, D]⟩ .f32 :=
  fun i => max (affineAt mean h wl wr b (i 0) (i 1)) (Ideal.ofBits .f32 0x00000000#32)

/-- An entry depends on one row of `mean` and one row of `h` only: if row `r` of the tile (`mean'`, `h'`)
    is row `R` of the array (`mean`, `h`), the entries agree. -/
theorem affineAt_rows {N N' D : Nat} (mean h : FVec Ideal ⟨2, ![N, 128]⟩ .f32) (mean' h' : FVec Ideal ⟨2, ![N', 128]⟩ .f32)
    (wl wr : FVec Ideal ⟨2, ![128, D]⟩ .f32) (b : FVec Ideal ⟨2, ![1, D]⟩ .f32) (r : Fin N') (R : Fin N) (c : Fin D)
    (hm : ∀ k : Fin 128, mean' (ix2 r k) = mean (ix2 R k)) (hh : ∀ k : Fin 128, h' (ix2 r k) = h (ix2 R k)) :
    affineAt mean' h' wl wr b r c = affineAt mean h wl wr b R c := by
  unfold affineAt
  simp only [hm, hh]

/-- An entry of the layer from any spelling of its three terms: two sums whose factors are `mean`, `h` along
    row r and the weights down column c (read through whatever index functions `L`, `R`, `L'`, `R'` a program
    uses, as long as these are row r / column c at feature k), and a third term that is the bias at column c. -/
theorem affineAt_of_terms {N D : Nat} (mean h : FVec Ideal ⟨2, ![N, 128]⟩ .f32) (wl wr : FVec Ideal ⟨2, ![128, D]⟩ .f32)
    (b : FVec Ideal ⟨2, ![1, D]⟩ .f32) (r : Fin N) (c : Fin D)
    (L L' : Fin 128 → (⟨2, ![N, 128]⟩ : Shape).Idx) (R R' : Fin 128 → (⟨2, ![128, D]⟩ : Shape).Idx) (β : EReal)
    (hL : ∀ k, L k = ix2 r k) (hR : ∀ k, R k = ix2 k c) (hL' : ∀ k, L' k = ix2 r k) (hR' : ∀ k, R' k = ix2 k c)
    (hβ : β = b (ix2 (0 : Fin 1) c)) :
    (∑ k : Fin 128, mean (L k) * wl (R k)) + (∑ k : Fin 128, h (L' k) * wr (R' k)) + β = affineAt mean h wl wr b r c := by
  unfold affineAt
  simp only [hL, hR, hL', hR', hβ]

end Cert.Layer

end
-- ==== Proof.Hidden0.lean ====
/-
  The first hidden layer's grid, read as one function of the arrays it finds.

  The grid has 20 steps; step t takes rows 5000·t … 5000·t + 4999 of the neighbour means and of the node
  features, the two whole weight matrices (already transposed: 128 rows, one column per output feature) and
  the bias row, and writes the same rows of the output. What a step stores at (r, c) is
      max( Σ_k mean[5000t + r, k]·wl[k, c] + Σ_k h[5000t + r, k]·wr[k, c] + b[0, c], 0 ):
  the casts to the narrower float format on the way into the products are the identity over the extended
  reals and each product into its zero accumulator is a plain sum. An entry of the layer depends on one row
  only, so the tile's entry IS the whole layer's entry at row 5000t + r; the 20 tiles partition the 100000
  rows, so after the last step the output array holds the layer at every index.
-/
import proofs.«108933_j86199993631208_1_alg».proof.Proof.Gen.KernelIdeal.Frame
import proofs.«108933_j86199993631208_1_alg».proof.Proof.TileMatmul
import proofs.«108933_j86199993631208_1_alg».proof.Proof.Spec
import Idealize.ShloMosaic.Lib.Pipeline.Value

noncomputable section

namespace Cert.KernelIdeal.Hidden0

open Cert.KernelIdeal Cert.KernelIdeal.Gen Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## One step's store, entry by entry -/

/-- The bias row repeated down the tile reads, at (r, c), its entry (0, c). -/
theorem bias_at (x4 : Vec Ideal S1x128 .f32) (r : Fin 5000) (c : Fin 128) :
    broadcastTo S5000x128 x4 broadcasts_S1x128_S5000x128 (ix2 r c) = x4 (ix2 (0 : Fin 1) c) :=
  broadcastTo_apply x4 broadcasts_S1x128_S5000x128 (ix2 r c) (ix2 (0 : Fin 1) c) (fun a => match a with
    | ⟨0, _⟩ => by show 0 = if (1 : Nat) = 1 then 0 else r.val; rw [if_pos rfl]
    | ⟨1, _⟩ => by show c.val = if (128 : Nat) = 1 then 0 else c.val; rw [if_neg (by decide)])

/-- What a step stores at (r, c): the layer's affine entry of the step's tiles, clamped below at zero. -/
theorem pay_at (x0 x1 : Vec Ideal S5000x128 .f32) (x2 x3 : Vec Ideal S128x128 .f32) (x4 : Vec Ideal S1x128 .f32) (r : Fin 5000) (c : Fin 128) :
    k0_pay1 x0 x1 x2 x3 x4 (ix2 r c) = max (Layer.affineAt x0 x1 x2 x3 x4 r c) (Ideal.ofBits .f32 0x00000000#32) := by
  unfold k0_pay1 Layer.affineAt
  simp only [ValueIdx.maximumf_apply, ValueIdx.addf_apply, Tile.matmul128_at, shapeCast_self, ValueIdx.truncf_apply, ValueIdx.broadcast_apply]
  rw [bias_at]
  rfl

/-- A tile's store against the whole layer: if the tile's rows of `mean` and `h` are rows of the arrays
    `A0`, `A1` (row `j 0` of the tile being row `i 0` of the arrays), the weights and the bias are the arrays'
    and the columns agree, then what the step stores at `j` is the layer of the arrays at `i`. -/
theorem tile_eq (A0 A1 : FVec Ideal S100000x128 .f32) (w0 w1 : FVec Ideal S128x128 .f32) (bb : FVec Ideal S1x128 .f32)
    (x0 x1 : Vec Ideal S5000x128 .f32) (x2 x3 : Vec Ideal S128x128 .f32) (x4 : Vec Ideal S1x128 .f32)
    (j : S5000x128.Idx) (i : S100000x128.Idx)
    (h0 : ∀ k : Fin 128, x0 (ix2 (j 0) k) = A0 (ix2 (i 0) k)) (h1 : ∀ k : Fin 128, x1 (ix2 (j 0) k) = A1 (ix2 (i 0) k))
    (h2 : x2 = w0) (h3 : x3 = w1) (h4 : x4 = bb) (hc : (i 1).val = (j 1).val) :
    k0_pay1 x0 x1 x2 x3 x4 j = Layer.affineRelu A0 A1 w0 w1 bb i := by
  subst h2 h3 h4
  obtain ⟨r, cc, rfl⟩ : ∃ (r : Fin 5000) (cc : Fin 128), j = ix2 r cc := ⟨j 0, j 1, eq_ix2 j⟩
  have hc' : (i 1 : Fin 128) = cc := Fin.ext hc
  rw [pay_at]
  unfold Layer.affineRelu
  exact congrArg (max · (Ideal.ofBits .f32 0x00000000#32))
    ((Layer.affineAt_rows A0 A1 x0 x1 x2 x3 x4 r (i 0) cc h0 h1).trans (congrArg (Layer.affineAt A0 A1 x2 x3 x4 (i 0)) hc'.symm))

/-! ## The grid's index maps, decided once -/

/-- Step t's row tiles are tile t; the weight and bias windows stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The layer of the arrays the grid finds: neighbour means, node features, the two transposed weight
    matrices, the bias row. -/
abbrev layer (c : Dev nD) : FVec Ideal S100000x128 .f32 :=
  Layer.affineRelu (V c main_v28) (V c main_arg0) (V c main_v4) (V c main_v5) (V c main_v29)

/-! ## What step t writes back -/

/-- What step t writes back is tile t of the layer. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  show k0_pay1 (iblk0 V c 0 t) (iblk0 V c 1 t) (iblk0 V c 2 t) (iblk0 V c 3 t) (iblk0 V c 4 t) j
    = Layer.affineRelu (V c main_v28) (V c main_arg0) (V c main_v4) (V c main_v5) (V c main_v29) (((cfg0.win 5).blk t).view.emb j)
  have hj0 : (j 0).val < 5000 := (j 0).isLt
  have hj1 : (j 1).val < 128 := (j 1).isLt
  refine tile_eq (V c main_v28) (V c main_arg0) (V c main_v4) (V c main_v5) (V c main_v29)
    (iblk0 V c 0 t) (iblk0 V c 1 t) (iblk0 V c 2 t) (iblk0 V c 3 t) (iblk0 V c 4 t) j (((cfg0.win 5).blk t).view.emb j) ?_ ?_ ?_ ?_ ?_ ?_
  · intro k
    show V c main_v28 (((cfg0.win 0).blk t).view.emb (ix2 (j 0) k)) = V c main_v28 (ix2 ((((cfg0.win 5).blk t).view.emb j) 0) k)
    refine congrArg (V c main_v28) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · intro k
    show V c main_arg0 (((cfg0.win 1).blk t).view.emb (ix2 (j 0) k)) = V c main_arg0 (ix2 ((((cfg0.win 5).blk t).view.emb j) 0) k)
    refine congrArg (V c main_arg0) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · funext y
    show V c main_v4 (((cfg0.win 2).blk t).view.emb y) = V c main_v4 y
    refine congrArg (V c main_v4) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_v5 (((cfg0.win 3).blk t).view.emb y) = V c main_v5 y
    refine congrArg (V c main_v5) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_v29 (((cfg0.win 4).blk t).view.emb y) = V c main_v29 y
    refine congrArg (V c main_v29) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  · show win0_5.index t (1 : Fin 2) * 128 + 1 * (j 1).val = (j 1).val; omega

/-! ## The tiles partition the rows -/

/-- An index of the output array is in step t's tile iff each coordinate is in the tile's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v30).slice (win0_5.rect t)).set ↔ _
  rw [View.set_slice_whole, Rect.mem_set_unit]
  exact Iff.rfl

/-- Row r lies in tile r / 5000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have ht : t.val = (i 0).val / 5000 := rfl
  obtain ⟨e00, e01, e10, e11, e20, e21, e30, e31, e40, e41, e50, e51⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After the last step the output array holds the layer of the arrays the grid found. -/
theorem final (c : Dev nD) : (dat0 V c).arrAt 5 cfg0.N = layer V c :=
  (dat0 V c).arrAt_eq_of_cover 5 (layer V c) (fun t _ => flushed_eq V c t) cover

end Cert.KernelIdeal.Hidden0

end
-- ==== Proof.Last.lean ====
/-
  The last layer's grid, read as one function of the arrays it finds.

  As in the hidden layers the grid has 20 steps and step t takes rows 5000·t … 5000·t + 4999 of the
  neighbour means and of the node features; the weight matrices now have 64 columns, the bias row 64
  entries, and there is no clamp: what a step stores at (r, c), c among the 64 output features, is
      Σ_k mean[5000t + r, k]·wl[k, c] + Σ_k h[5000t + r, k]·wr[k, c] + b[0, c].
  Again an entry depends on one row only and the 20 tiles partition the 100000 rows, so after the last step
  the result array holds the affine layer at every index.
-/
import proofs.«108933_j86199993631208_1_alg».proof.Proof.Gen.KernelIdeal.Frame
import proofs.«108933_j86199993631208_1_alg».proof.Proof.TileMatmul
import proofs.«108933_j86199993631208_1_alg».proof.Proof.Spec
import Idealize.ShloMosaic.Lib.Pipeline.Value

noncomputable section

namespace Cert.KernelIdeal.Last

open Cert.KernelIdeal Cert.KernelIdeal.Gen Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## One step's store, entry by entry -/

/-- The 64-entry bias row repeated down the tile reads, at (r, c), its entry (0, c). -/
theorem bias_at (x4 : Vec Ideal S1x64 .f32) (r : Fin 5000) (c : Fin 64) :
    broadcastTo S5000x64 x4 broadcasts_S1x64_S5000x64 (ix2 r c) = x4 (ix2 (0 : Fin 1) c) :=
  broadcastTo_apply x4 broadcasts_S1x64_S5000x64 (ix2 r c) (ix2 (0 : Fin 1) c) (fun a => match a with
    | ⟨0, _⟩ => by show 0 = if (1 : Nat) = 1 then 0 else r.val; rw [if_pos rfl]
    | ⟨1, _⟩ => by show c.val = if (64 : Nat) = 1 then 0 else c.val; rw [if_neg (by decide)])

/-- What a step stores at (r, c): the layer's affine entry of the step's tiles, unclamped. -/
theorem pay_at (x0 x1 : Vec Ideal S5000x128 .f32) (x2 x3 : Vec Ideal S128x64 .f32) (x4 : Vec Ideal S1x64 .f32) (r : Fin 5000) (c : Fin 64) :
    k2_pay1 x0 x1 x2 x3 x4 (ix2 r c) = Layer.affineAt x0 x1 x2 x3 x4 r c := by
  unfold k2_pay1 Layer.affineAt
  simp only [ValueIdx.addf_apply, Tile.matmul64_at, shapeCast_self, ValueIdx.truncf_apply]
  rw [bias_at]

/-- A tile's store against the whole layer: rows of the tile being rows of the arrays, the weights and the
    bias the arrays' and the columns agreeing, what the step stores at `j` is the affine layer of the arrays at `i`. -/
theorem tile_eq (A0 A1 : FVec Ideal S100000x128 .f32) (w0 w1 : FVec Ideal S128x64 .f32) (bb : FVec Ideal S1x64 .f32)
    (x0 x1 : Vec Ideal S5000x128 .f32) (x2 x3 : Vec Ideal S128x64 .f32) (x4 : Vec Ideal S1x64 .f32)
    (j : S5000x64.Idx) (i : S100000x64.Idx)
    (h0 : ∀ k : Fin 128, x0 (ix2 (j 0) k) = A0 (ix2 (i 0) k)) (h1 : ∀ k : Fin 128, x1 (ix2 (j 0) k) = A1 (ix2 (i 0) k))
    (h2 : x2 = w0) (h3 : x3 = w1) (h4 : x4 = bb) (hc : (i 1).val = (j 1).val) :
    k2_pay1 x0 x1 x2 x3 x4 j = Layer.affine A0 A1 w0 w1 bb i := by
  subst h2 h3 h4
  obtain ⟨r, cc, rfl⟩ : ∃ (r : Fin 5000) (cc : Fin 64), j = ix2 r cc := ⟨j 0, j 1, eq_ix2 j⟩
  have hc' : (i 1 : Fin 64) = cc := Fin.ext hc
  rw [pay_at]
  unfold Layer.affine
  exact (Layer.affineAt_rows A0 A1 x0 x1 x2 x3 x4 r (i 0) cc h0 h1).trans (congrArg (Layer.affineAt A0 A1 x2 x3 x4 (i 0)) hc'.symm)

/-! ## The grid's index maps, decided once -/

/-- Step t's row tiles are tile t; the weight and bias windows stay at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- The affine layer of the arrays the grid finds: neighbour means, node features, the two transposed
    128×64 weight matrices, the 64-entry bias row. -/
abbrev layer (c : Dev nD) : FVec Ideal S100000x64 .f32 :=
  Layer.affine (V c main_v70) (V c main_v51) (V c main_v8) (V c main_v9) (V c main_v71)

/-! ## What step t writes back -/

/-- What step t writes back is tile t of the layer. -/
theorem flushed_eq (c : Dev nD) (t : Fin cfg2.N) :
    (dat2 V c).flushed 5 t = ((cfg2.win 5).blk t).view.read (Elt Ideal) (layer V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e50, e51⟩ := idx_facts t
  funext j
  show k2_pay1 (iblk2 V c 0 t) (iblk2 V c 1 t) (iblk2 V c 2 t) (iblk2 V c 3 t) (iblk2 V c 4 t) j
    = Layer.affine (V c main_v70) (V c main_v51) (V c main_v8) (V c main_v9) (V c main_v71) (((cfg2.win 5).blk t).view.emb j)
  have hj0 : (j 0).val < 5000 := (j 0).isLt
  have hj1 : (j 1).val < 64 := (j 1).isLt
  refine tile_eq (V c main_v70) (V c main_v51) (V c main_v8) (V c main_v9) (V c main_v71)
    (iblk2 V c 0 t) (iblk2 V c 1 t) (iblk2 V c 2 t) (iblk2 V c 3 t) (iblk2 V c 4 t) j (((cfg2.win 5).blk t).view.emb j) ?_ ?_ ?_ ?_ ?_ ?_
  · intro k
    show V c main_v70 (((cfg2.win 0).blk t).view.emb (ix2 (j 0) k)) = V c main_v70 (ix2 ((((cfg2.win 5).blk t).view.emb j) 0) k)
    refine congrArg (V c main_v70) (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * k.val = k.val; omega
  · intro k
    show V c main_v51 (((cfg2.win 1).blk t).view.emb (ix2 (j 0) k)) = V c main_v51 (ix2 ((((cfg2.win 5).blk t).view.emb j) 0) k)
    refine congrArg (V c main_v51) (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 128 + 1 * k.val = k.val; omega
  · funext y
    show V c main_v8 (((cfg2.win 2).blk t).view.emb y) = V c main_v8 y
    refine congrArg (V c main_v8) (funext fun a => Fin.ext ?_)
    match a with
    | ⟨0, _⟩ => show win2_2.index t (0 : Fin 2) * 128 + 1 * (y 0).val = (y 0).val; omega
    | ⟨1, _⟩ => show win2_2.index t (1 : Fin 2) * 64 + 1 * (y 1).val = (y 1).val; omega
  · funext y
    show V c main_v9 (((cfg2.win 3).blk t).view.emb y) = V c main_v9 y
    refine congrArg (V c main_v9) (funext fun a => Fin.ext ?_)
    match a with
    | ⟨0, _⟩ => show win2_3.index t (0 : Fin 2) * 128 + 1 * (y 0).val = (y 0).val; omega
    | ⟨1, _⟩ => show win2_3.index t (1 : Fin 2) * 64 + 1 * (y 1).val = (y 1).val; omega
  · funext y
    show V c main_v71 (((cfg2.win 4).blk t).view.emb y) = V c main_v71 y
    refine congrArg (V c main_v71) (funext fun a => Fin.ext ?_)
    match a with
    | ⟨0, _⟩ => show win2_4.index t (0 : Fin 2) * 1 + 1 * (y 0).val = (y 0).val; omega
    | ⟨1, _⟩ => show win2_4.index t (1 : Fin 2) * 64 + 1 * (y 1).val = (y 1).val; omega
  · show win2_5.index t (1 : Fin 2) * 64 + 1 * (j 1).val = (j 1).val; omega

/-! ## The tiles partition the rows -/

/-- An index of the result array is in step t's tile iff each coordinate is in the tile's range on its axis. -/
theorem mem_blk (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v72).slice (win2_5.rect t)).set ↔ _
  rw [View.set_slice_whole, Rect.mem_set_unit]
  exact Iff.rfl

/-- Row r lies in tile r / 5000. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  have ht : t.val = (i 0).val / 5000 := rfl
  obtain ⟨e00, e01, e10, e11, e20, e21, e30, e31, e40, e41, e50, e51⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- After the last step the result array holds the affine layer of the arrays the grid found. -/
theorem final (c : Dev nD) : (dat2 V c).arrAt 5 cfg2.N = layer V c :=
  (dat2 V c).arrAt_eq_of_cover 5 (layer V c) (fun t _ => flushed_eq V c t) cover

end Cert.KernelIdeal.Last

end
-- ==== Proof.Aggregate.lean ====
/-
  The neighbour mean both programs compute on the host, as one function.

  The edge list has a row of source nodes and a row of destination nodes. For node features `h` the mean
  over a node's incoming edges is: gather the source rows of `h` edge by edge (a negative source index
  counted from the end, as the index normalisation before the gather does), add each gathered row into its
  destination's row of a zero array, count the edges into each destination the same way (adding ones into
  zeros), and divide each summed row by its count or by one where the count is below one. Every layer of
  either program applies exactly this chain of operations to its own `h` with the same two index rows, so
  the certificate names the chain once and never opens it: the two programs' results agree because they
  feed equal arrays through one function.
-/
import proofs.«108933_j86199993631208_1_alg».proof.Proof.Gen.KernelIdeal

noncomputable section

namespace Cert.KernelIdeal.Net

open Cert.KernelIdeal Cert.KernelIdeal.Gen Idealize.ShloMosaic

variable {F : FTy → Type} [FloatOps F]

/-- The source node of every edge: row 0 of the edge list, as a vector. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The destination node of every edge: row 1 of the edge list, as a vector. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The mean of `h`'s source rows over each node's incoming edges (the sum where a node has fewer than one). -/
def agg (h : (⟨S100000x128, .f32⟩ : BufTy).Contents (Elt F)) (src dst : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant (F := F) S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant (F := F) S_ .f32 0x00000000#32))
            (broadcastInDim S1600000x1 ![0] bcast_S1600000_S1600000x1_0 dst)
            (broadcastInDim S1600000 ![] bcast_S_S1600000 (constant (F := F) S_ .f32 0x3F800000#32)))
          (broadcastInDim S100000 ![] bcast_S_S100000 (constant (F := F) S_ .f32 0x3F800000#32)))))

end Cert.KernelIdeal.Net

end
-- ==== Proof.Network.lean ====
/-
  The three-layer network as one function of the program's arguments.

  A hidden layer takes node features `h`, forms the neighbour means of `h` over the edge list, and applies the
  dense layer of Spec.lean to (means, `h`) with its two weight matrices transposed (the arguments carry one ROW
  per output feature, the dense layer wants one COLUMN) and its bias as a one-row matrix, clamped below at zero.
  The last layer is the same without the clamp, 64 features wide. The network is hidden ∘ hidden ∘ last, every
  layer aggregating over the same source and destination rows of the one edge list.
-/
import proofs.«108933_j86199993631208_1_alg».proof.Proof.Aggregate
import proofs.«108933_j86199993631208_1_alg».proof.Proof.Spec

noncomputable section

namespace Cert.KernelIdeal.Net

open Cert.KernelIdeal Cert.KernelIdeal.Gen Idealize.ShloMosaic

/-- A hidden layer: aggregate, then the clamped dense layer on (means, features). -/
def hidden (h : (⟨S100000x128, .f32⟩ : BufTy).Contents (Elt Ideal)) (src dst : (⟨S1600000, .i32⟩ : BufTy).Contents (Elt Ideal))
    (wl wr : (⟨S128x128, .f32⟩ : BufTy).Contents (Elt Ideal)) (b : (⟨S128, .f32⟩ : BufTy).Contents (Elt Ideal)) :
    (⟨S100000x128, .f32⟩ : BufTy).Contents (Elt Ideal) :=
  Layer.affineRelu (agg h src dst) h
    (transpose S128x128 [1, 0] wl transposes_S128x128_S128x128_1_0) (transpose S128x128 [1, 0] wr transposes_S128x128_S128x128_1_0)
    (shapeCast S1x128 b shapeCasts_S128_S1x128)

/-- The last layer: aggregate, then the unclamped dense layer, 64 features wide. -/
def last (h : (⟨S100000x128, .f32⟩ : BufTy).Contents (Elt Ideal)) (src dst : (⟨S1600000, .i32⟩ : BufTy).Contents (Elt Ideal))
    (wl wr : (⟨S64x128, .f32⟩ : BufTy).Contents (Elt Ideal)) (b : (⟨S64, .f32⟩ : BufTy).Contents (Elt Ideal)) :
    (⟨S100000x64, .f32⟩ : BufTy).Contents (Elt Ideal) :=
  Layer.affine (agg h src dst) h
    (transpose S128x64 [1, 0] wl transposes_S64x128_S128x64_1_0) (transpose S128x64 [1, 0] wr transposes_S64x128_S128x64_1_0)
    (shapeCast S1x64 b shapeCasts_S64_S1x64)

/-- The network: two hidden layers and the last one over one edge list. -/
def net (x : (⟨S100000x128, .f32⟩ : BufTy).Contents (Elt Ideal)) (e : (⟨S2x1600000, .i32⟩ : BufTy).Contents (Elt Ideal))
    (wl0 wr0 : (⟨S128x128, .f32⟩ : BufTy).Contents (Elt Ideal)) (b0 : (⟨S128, .f32⟩ : BufTy).Contents (Elt Ideal))
    (wl1 wr1 : (⟨S128x128, .f32⟩ : BufTy).Contents (Elt Ideal)) (b1 : (⟨S128, .f32⟩ : BufTy).Contents (Elt Ideal))
    (wl2 wr2 : (⟨S64x128, .f32⟩ : BufTy).Contents (Elt Ideal)) (b2 : (⟨S64, .f32⟩ : BufTy).Contents (Elt Ideal)) :
    (⟨S100000x64, .f32⟩ : BufTy).Contents (Elt Ideal) :=
  last (hidden (hidden x (srcOf e) (dstOf e) wl0 wr0 b0) (srcOf e) (dstOf e) wl1 wr1 b1) (srcOf e) (dstOf e) wl2 wr2 b2

end Cert.KernelIdeal.Net

end
-- ==== Proof.KernelValue.lean ====
/-
  The kernel program's result array as the network of its arguments.

  Between the launch and the return the program's buffers pass six boundaries: after the first stretch of host
  operations, after the first grid, after the second stretch, after the second grid, after the third stretch,
  after the third grid. A host stretch computes the neighbour means of the current features (and, the first
  one, the transposed weights, the one-row biases and the two index rows) and leaves every other buffer as it
  was; a grid writes its layer into its output array (Hidden0, Hidden1, Last) and leaves every other buffer as
  it was. Reading the result array back through the six boundaries gives the network of Network.lean applied
  to the launch contents of the eleven arguments.
-/
import proofs.«108933_j86199993631208_1_alg».proof.Proof.Gen.KernelIdeal.Frame
import proofs.«108933_j86199993631208_1_alg».proof.Proof.Hidden0
import proofs.«108933_j86199993631208_1_alg».proof.Proof.Hidden1
import proofs.«108933_j86199993631208_1_alg».proof.Proof.Last
import proofs.«108933_j86199993631208_1_alg».proof.Proof.Network
import proofs.«108933_j86199993631208_1_alg».proof.Proof.KernelRun
import Idealize.ShloMosaic.Lib.StableHlo.Run

set_option maxRecDepth 16384

noncomputable section

namespace Cert.KernelIdeal.Net

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- Reads one buffer after a literal stretch of host operations: the operation that writes it applied to what its
    operands held, or, written by none, what it held before. -/
local macro "host_read" : tactic =>
  `(tactic| (after_results_simp <;> first | rfl | (unfold agg srcOf dstOf; rfl)))

/-! ## After the first host stretch -/

theorem w1_src (c : Dev nD) : W1 m ρ c (Proc.devRef .tc main_v1) = srcOf (m ((c : Thread nD τ).loc main_arg1)) := by
  show StableHlo.after hostOps0 (W0 m ρ c) (Proc.devRef .tc main_v1) = _; host_read
theorem w1_dst (c : Dev nD) : W1 m ρ c (Proc.devRef .tc main_v3) = dstOf (m ((c : Thread nD τ).loc main_arg1)) := by
  show StableHlo.after hostOps0 (W0 m ρ c) (Proc.devRef .tc main_v3) = _; host_read
theorem w1_mean (c : Dev nD) : W1 m ρ c (Proc.devRef .tc main_v28)
    = agg (m ((c : Thread nD τ).loc main_arg0)) (srcOf (m ((c : Thread nD τ).loc main_arg1))) (dstOf (m ((c : Thread nD τ).loc main_arg1))) := by
  show StableHlo.after hostOps0 (W0 m ρ c) (Proc.devRef .tc main_v28) = _; host_read
theorem w1_x (c : Dev nD) : W1 m ρ c (Proc.devRef .tc main_arg0) = m ((c : Thread nD τ).loc main_arg0) := by
  show StableHlo.after hostOps0 (W0 m ρ c) (Proc.devRef .tc main_arg0) = _; host_read
theorem w1_wl0 (c : Dev nD) : W1 m ρ c (Proc.devRef .tc main_v4) = transpose S128x128 [1, 0] (m ((c : Thread nD τ).loc main_arg2)) transposes_S128x128_S128x128_1_0 := by
  show StableHlo.after hostOps0 (W0 m ρ c) (Proc.devRef .tc main_v4) = _; host_read
theorem w1_wr0 (c : Dev nD) : W1 m ρ c (Proc.devRef .tc main_v5) = transpose S128x128 [1, 0] (m ((c : Thread nD τ).loc main_arg3)) transposes_S128x128_S128x128_1_0 := by
  show StableHlo.after hostOps0 (W0 m ρ c) (Proc.devRef .tc main_v5) = _; host_read
theorem w1_b0 (c : Dev nD) : W1 m ρ c (Proc.devRef .tc main_v29) = shapeCast S1x128 (m ((c : Thread nD τ).loc main_arg4)) shapeCasts_S128_S1x128 := by
  show StableHlo.after hostOps0 (W0 m ρ c) (Proc.devRef .tc main_v29) = _; host_read
theorem w1_wl1 (c : Dev nD) : W1 m ρ c (Proc.devRef .tc main_v6) = transpose S128x128 [1, 0] (m ((c : Thread nD τ).loc main_arg5)) transposes_S128x128_S128x128_1_0 := by
  show StableHlo.after hostOps0 (W0 m ρ c) (Proc.devRef .tc main_v6) = _; host_read
theorem w1_wr1 (c : Dev nD) : W1 m ρ c (Proc.devRef .tc main_v7) = transpose S128x128 [1, 0] (m ((c : Thread nD τ).loc main_arg6)) transposes_S128x128_S128x128_1_0 := by
  show StableHlo.after hostOps0 (W0 m ρ c) (Proc.devRef .tc main_v7) = _; host_read
theorem w1_wl2 (c : Dev nD) : W1 m ρ c (Proc.devRef .tc main_v8) = transpose S128x64 [1, 0] (m ((c : Thread nD τ).loc main_arg8)) transposes_S64x128_S128x64_1_0 := by
  show StableHlo.after hostOps0 (W0 m ρ c) (Proc.devRef .tc main_v8) = _; host_read
theorem w1_wr2 (c : Dev nD) : W1 m ρ c (Proc.devRef .tc main_v9) = transpose S128x64 [1, 0] (m ((c : Thread nD τ).loc main_arg9)) transposes_S64x128_S128x64_1_0 := by
  show StableHlo.after hostOps0 (W0 m ρ c) (Proc.devRef .tc main_v9) = _; host_read
theorem w1_a7 (c : Dev nD) : W1 m ρ c (Proc.devRef .tc main_arg7) = m ((c : Thread nD τ).loc main_arg7) := by
  show StableHlo.after hostOps0 (W0 m ρ c) (Proc.devRef .tc main_arg7) = _; host_read
theorem w1_a10 (c : Dev nD) : W1 m ρ c (Proc.devRef .tc main_arg10) = m ((c : Thread nD τ).loc main_arg10) := by
  show StableHlo.after hostOps0 (W0 m ρ c) (Proc.devRef .tc main_arg10) = _; host_read

/-! ## After the first grid -/

/-- The first hidden layer's features, as the arguments' function. -/
abbrev h1 (c : Dev nD) : (⟨S100000x128, .f32⟩ : BufTy).Contents (Elt Ideal) :=
  hidden (m ((c : Thread nD τ).loc main_arg0)) (srcOf (m ((c : Thread nD τ).loc main_arg1))) (dstOf (m ((c : Thread nD τ).loc main_arg1)))
    (m ((c : Thread nD τ).loc main_arg2)) (m ((c : Thread nD τ).loc main_arg3)) (m ((c : Thread nD τ).loc main_arg4))

theorem w2_h1 (c : Dev nD) : W2 m ρ c (Proc.devRef .tc main_v30) = h1 m c := by
  refine (W2_arr m ρ c 5).trans ((Hidden0.final (V1 m ρ) c).trans ?_)
  show Layer.affineRelu (W1 m ρ c (Proc.devRef .tc main_v28)) (W1 m ρ c (Proc.devRef .tc main_arg0)) (W1 m ρ c (Proc.devRef .tc main_v4))
    (W1 m ρ c (Proc.devRef .tc main_v5)) (W1 m ρ c (Proc.devRef .tc main_v29)) = _
  rw [w1_mean, w1_x, w1_wl0, w1_wr0, w1_b0]
  rfl

theorem w2_src (c : Dev nD) : W2 m ρ c (Proc.devRef .tc main_v1) = srcOf (m ((c : Thread nD τ).loc main_arg1)) :=
  (W2_of_ne m ρ c main_v1 (by decide)).trans (w1_src m ρ c)
theorem w2_dst (c : Dev nD) : W2 m ρ c (Proc.devRef .tc main_v3) = dstOf (m ((c : Thread nD τ).loc main_arg1)) :=
  (W2_of_ne m ρ c main_v3 (by decide)).trans (w1_dst m ρ c)
theorem w2_wl1 (c : Dev nD) : W2 m ρ c (Proc.devRef .tc main_v6) = transpose S128x128 [1, 0] (m ((c : Thread nD τ).loc main_arg5)) transposes_S128x128_S128x128_1_0 :=
  (W2_of_ne m ρ c main_v6 (by decide)).trans (w1_wl1 m ρ c)
theorem w2_wr1 (c : Dev nD) : W2 m ρ c (Proc.devRef .tc main_v7) = transpose S128x128 [1, 0] (m ((c : Thread nD τ).loc main_arg6)) transposes_S128x128_S128x128_1_0 :=
  (W2_of_ne m ρ c main_v7 (by decide)).trans (w1_wr1 m ρ c)
theorem w2_wl2 (c : Dev nD) : W2 m ρ c (Proc.devRef .tc main_v8) = transpose S128x64 [1, 0] (m ((c : Thread nD τ).loc main_arg8)) transposes_S64x128_S128x64_1_0 :=
  (W2_of_ne m ρ c main_v8 (by decide)).trans (w1_wl2 m ρ c)
theorem w2_wr2 (c : Dev nD) : W2 m ρ c (Proc.devRef .tc main_v9) = transpose S128x64 [1, 0] (m ((c : Thread nD τ).loc main_arg9)) transposes_S64x128_S128x64_1_0 :=
  (W2_of_ne m ρ c main_v9 (by decide)).trans (w1_wr2 m ρ c)
theorem w2_a7 (c : Dev nD) : W2 m ρ c (Proc.devRef .tc main_arg7) = m ((c : Thread nD τ).loc main_arg7) :=
  (W2_of_ne m ρ c main_arg7 (by decide)).trans (w1_a7 m ρ c)
theorem w2_a10 (c : Dev nD) : W2 m ρ c (Proc.devRef .tc main_arg10) = m ((c : Thread nD τ).loc main_arg10) :=
  (W2_of_ne m ρ c main_arg10 (by decide)).trans (w1_a10 m ρ c)

/-! ## After the second host stretch -/

theorem w3_mean (c : Dev nD) : W3 m ρ c (Proc.devRef .tc main_v49)
    = agg (W2 m ρ c (Proc.devRef .tc main_v30)) (W2 m ρ c (Proc.devRef .tc main_v1)) (W2 m ρ c (Proc.devRef .tc main_v3)) := by
  show StableHlo.after hostOps1 (W2 m ρ c) (Proc.devRef .tc main_v49) = _; host_read
theorem w3_h1 (c : Dev nD) : W3 m ρ c (Proc.devRef .tc main_v30) = W2 m ρ c (Proc.devRef .tc main_v30) := by
  show StableHlo.after hostOps1 (W2 m ρ c) (Proc.devRef .tc main_v30) = _; host_read
theorem w3_wl1 (c : Dev nD) : W3 m ρ c (Proc.devRef .tc main_v6) = W2 m ρ c (Proc.devRef .tc main_v6) := by
  show StableHlo.after hostOps1 (W2 m ρ c) (Proc.devRef .tc main_v6) = _; host_read
theorem w3_wr1 (c : Dev nD) : W3 m ρ c (Proc.devRef .tc main_v7) = W2 m ρ c (Proc.devRef .tc main_v7) := by
  show StableHlo.after hostOps1 (W2 m ρ c) (Proc.devRef .tc main_v7) = _; host_read
theorem w3_b1 (c : Dev nD) : W3 m ρ c (Proc.devRef .tc main_v50) = shapeCast S1x128 (W2 m ρ c (Proc.devRef .tc main_arg7)) shapeCasts_S128_S1x128 := by
  show StableHlo.after hostOps1 (W2 m ρ c) (Proc.devRef .tc main_v50) = _; host_read
theorem w3_src (c : Dev nD) : W3 m ρ c (Proc.devRef .tc main_v1) = W2 m ρ c (Proc.devRef .tc main_v1) := by
  show StableHlo.after hostOps1 (W2 m ρ c) (Proc.devRef .tc main_v1) = _; host_read
theorem w3_dst (c : Dev nD) : W3 m ρ c (Proc.devRef .tc main_v3) = W2 m ρ c (Proc.devRef .tc main_v3) := by
  show StableHlo.after hostOps1 (W2 m ρ c) (Proc.devRef .tc main_v3) = _; host_read
theorem w3_wl2 (c : Dev nD) : W3 m ρ c (Proc.devRef .tc main_v8) = W2 m ρ c (Proc.devRef .tc main_v8) := by
  show StableHlo.after hostOps1 (W2 m ρ c) (Proc.devRef .tc main_v8) = _; host_read
theorem w3_wr2 (c : Dev nD) : W3 m ρ c (Proc.devRef .tc main_v9) = W2 m ρ c (Proc.devRef .tc main_v9) := by
  show StableHlo.after hostOps1 (W2 m ρ c) (Proc.devRef .tc main_v9) = _; host_read
theorem w3_a10 (c : Dev nD) : W3 m ρ c (Proc.devRef .tc main_arg10) = W2 m ρ c (Proc.devRef .tc main_arg10) := by
  show StableHlo.after hostOps1 (W2 m ρ c) (Proc.devRef .tc main_arg10) = _; host_read

/-! ## After the second grid -/

/-- The second hidden layer's features, as the arguments' function. -/
abbrev h2 (c : Dev nD) : (⟨S100000x128, .f32⟩ : BufTy).Contents (Elt Ideal) :=
  hidden (h1 m c) (srcOf (m ((c : Thread nD τ).loc main_arg1))) (dstOf (m ((c : Thread nD τ).loc main_arg1)))
    (m ((c : Thread nD τ).loc main_arg5)) (m ((c : Thread nD τ).loc main_arg6)) (m ((c : Thread nD τ).loc main_arg7))

theorem w4_h2 (c : Dev nD) : W4 m ρ c (Proc.devRef .tc main_v51) = h2 m c := by
  refine (W4_arr m ρ c 5).trans ((Hidden1.final (V3 m ρ) c).trans ?_)
  show Layer.affineRelu (W3 m ρ c (Proc.devRef .tc main_v49)) (W3 m ρ c (Proc.devRef .tc main_v30)) (W3 m ρ c (Proc.devRef .tc main_v6))
    (W3 m ρ c (Proc.devRef .tc main_v7)) (W3 m ρ c (Proc.devRef .tc main_v50)) = _
  rw [w3_mean, w3_h1, w3_wl1, w3_wr1, w3_b1, w2_h1, w2_src, w2_dst, w2_wl1, w2_wr1, w2_a7]
  rfl

theorem w4_src (c : Dev nD) : W4 m ρ c (Proc.devRef .tc main_v1) = srcOf (m ((c : Thread nD τ).loc main_arg1)) :=
  (W4_of_ne m ρ c main_v1 (by decide)).trans ((w3_src m ρ c).trans (w2_src m ρ c))
theorem w4_dst (c : Dev nD) : W4 m ρ c (Proc.devRef .tc main_v3) = dstOf (m ((c : Thread nD τ).loc main_arg1)) :=
  (W4_of_ne m ρ c main_v3 (by decide)).trans ((w3_dst m ρ c).trans (w2_dst m ρ c))
theorem w4_wl2 (c : Dev nD) : W4 m ρ c (Proc.devRef .tc main_v8) = transpose S128x64 [1, 0] (m ((c : Thread nD τ).loc main_arg8)) transposes_S64x128_S128x64_1_0 :=
  (W4_of_ne m ρ c main_v8 (by decide)).trans ((w3_wl2 m ρ c).trans (w2_wl2 m ρ c))
theorem w4_wr2 (c : Dev nD) : W4 m ρ c (Proc.devRef .tc main_v9) = transpose S128x64 [1, 0] (m ((c : Thread nD τ).loc main_arg9)) transposes_S64x128_S128x64_1_0 :=
  (W4_of_ne m ρ c main_v9 (by decide)).trans ((w3_wr2 m ρ c).trans (w2_wr2 m ρ c))
theorem w4_a10 (c : Dev nD) : W4 m ρ c (Proc.devRef .tc main_arg10) = m ((c : Thread nD τ).loc main_arg10) :=
  (W4_of_ne m ρ c main_arg10 (by decide)).trans ((w3_a10 m ρ c).trans (w2_a10 m ρ c))

/-! ## After the third host stretch -/

theorem w5_mean (c : Dev nD) : W5 m ρ c (Proc.devRef .tc main_v70)
    = agg (W4 m ρ c (Proc.devRef .tc main_v51)) (W4 m ρ c (Proc.devRef .tc main_v1)) (W4 m ρ c (Proc.devRef .tc main_v3)) := by
  show StableHlo.after hostOps2 (W4 m ρ c) (Proc.devRef .tc main_v70) = _; host_read
theorem w5_h2 (c : Dev nD) : W5 m ρ c (Proc.devRef .tc main_v51) = W4 m ρ c (Proc.devRef .tc main_v51) := by
  show StableHlo.after hostOps2 (W4 m ρ c) (Proc.devRef .tc main_v51) = _; host_read
theorem w5_wl2 (c : Dev nD) : W5 m ρ c (Proc.devRef .tc main_v8) = W4 m ρ c (Proc.devRef .tc main_v8) := by
  show StableHlo.after hostOps2 (W4 m ρ c) (Proc.devRef .tc main_v8) = _; host_read
theorem w5_wr2 (c : Dev nD) : W5 m ρ c (Proc.devRef .tc main_v9) = W4 m ρ c (Proc.devRef .tc main_v9) := by
  show StableHlo.after hostOps2 (W4 m ρ c) (Proc.devRef .tc main_v9) = _; host_read
theorem w5_b2 (c : Dev nD) : W5 m ρ c (Proc.devRef .tc main_v71) = shapeCast S1x64 (W4 m ρ c (Proc.devRef .tc main_arg10)) shapeCasts_S64_S1x64 := by
  show StableHlo.after hostOps2 (W4 m ρ c) (Proc.devRef .tc main_v71) = _; host_read

/-! ## After the third grid: the result -/

/-- The result array after the run is the network of the eleven arguments' launch contents. -/
theorem result_eq (c : Dev nD) : W6 m ρ c (Proc.devRef .tc main_v72)
    = net (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  refine (W6_arr m ρ c 5).trans ((Last.final (V5 m ρ) c).trans ?_)
  show Layer.affine (W5 m ρ c (Proc.devRef .tc main_v70)) (W5 m ρ c (Proc.devRef .tc main_v51)) (W5 m ρ c (Proc.devRef .tc main_v8))
    (W5 m ρ c (Proc.devRef .tc main_v9)) (W5 m ρ c (Proc.devRef .tc main_v71)) = _
  rw [w5_mean, w5_h2, w5_wl2, w5_wr2, w5_b2, w4_h2, w4_src, w4_dst, w4_wl2, w4_wr2, w4_a10]
  rfl

/-- The run, read: every weakly fair execution terminates, nothing faulting, with the result array at the network
    of the arguments and the arguments unchanged. -/
theorem run : θ_run defs (onTc (τ := τ) (main (F := Ideal))) ⟨m, fun _ => 0, ρ⟩ (fun r => ∀ c : Dev nD,
      r.2.mem ((c.tc : Thread nD τ).loc main_v72)
        = net (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
            (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (run_named (F := Ideal) m ρ)

end Cert.KernelIdeal.Net

end
-- ==== Proof.RefValue.lean ====
/-
  The reference program's result as the same network of its arguments.

  The reference computes each layer with the operations of its host program: the neighbour means by the chain of
  Aggregate.lean (spelt over this program's own dimension records, which hold the same numbers), then two matrix
  products of (means, features) with the transposed weight matrices, their sum, the bias spread over the rows, and
  for a hidden layer the maximum with a zero array. Read at an entry (r, c) a product is the sum over the 128
  features k of the left factor at (r, k) times the right factor at (k, c), and the spread bias is the bias at c:
  the three terms of the dense layer of Spec.lean, in its order. So each stage that ends a layer is that layer of
  Network.lean applied to the stage that ended the layer before, and the result is the network of the arguments.
-/
import proofs.«108933_j86199993631208_1_alg».proof.Proof.Gen.ReferenceIdeal.Read
import proofs.«108933_j86199993631208_1_alg».proof.Proof.Network
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx

/-! ## The neighbour means are the shared chain -/

theorem mean0_eq (x0 : (⟨S100000x128, .f32⟩ : BufTy).Contents (Elt Ideal)) (x1 : (⟨S2x1600000, .i32⟩ : BufTy).Contents (Elt Ideal)) :
    val_main_v22 (F := Ideal) x0 x1 = Cert.KernelIdeal.Net.agg x0 (Cert.KernelIdeal.Net.srcOf x1) (Cert.KernelIdeal.Net.dstOf x1) := rfl

theorem mean1_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v50 (F := Ideal) x0 x1 x2 x3 x4
      = Cert.KernelIdeal.Net.agg (val_main_v31 (F := Ideal) x0 x1 x2 x3 x4) (Cert.KernelIdeal.Net.srcOf x1) (Cert.KernelIdeal.Net.dstOf x1) := rfl

theorem mean2_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v78 (F := Ideal) x0 x1 x2 x3 x4 x5 x6 x7
      = Cert.KernelIdeal.Net.agg (val_main_v59 (F := Ideal) x0 x1 x2 x3 x4 x5 x6 x7) (Cert.KernelIdeal.Net.srcOf x1) (Cert.KernelIdeal.Net.dstOf x1) := rfl

/-! ## A dense layer's three terms, read at an entry -/

/-- The bias of 128 entries made a one-row matrix is the bias: entry (0, c) of the row is entry c. -/
theorem bias128_at (b : (⟨S128, .f32⟩ : BufTy).Contents (Elt Ideal)) (r : Fin 100000) (c : Fin 128) :
    b (idx_main_v28 (idx_main_v29 (ix2 r c)))
      = shapeCast Cert.KernelIdeal.S1x128 b Cert.KernelIdeal.Gen.shapeCasts_S128_S1x128 (ix2 (0 : Fin 1) c) :=
  (shapeCast_apply b Cert.KernelIdeal.Gen.shapeCasts_S128_S1x128 (ix2 (0 : Fin 1) c) (idx_main_v28 (idx_main_v29 (ix2 r c))) (by
    show (S128.rowMajor (idx_main_v28 (idx_main_v29 (ix2 r c)))).val = (Cert.KernelIdeal.S1x128.rowMajor (ix2 (0 : Fin 1) c)).val
    rw [Shape.rowMajor_val_one, Shape.rowMajor_val_two]
    show c.val = 0 * 128 + c.val
    omega)).symm

/-- The same for the last layer's 64 entries. -/
theorem bias64_at (b : (⟨S64, .f32⟩ : BufTy).Contents (Elt Ideal)) (r : Fin 100000) (c : Fin 64) :
    b (idx_main_v84 (idx_main_v85 (ix2 r c)))
      = shapeCast Cert.KernelIdeal.S1x64 b Cert.KernelIdeal.Gen.shapeCasts_S64_S1x64 (ix2 (0 : Fin 1) c) :=
  (shapeCast_apply b Cert.KernelIdeal.Gen.shapeCasts_S64_S1x64 (ix2 (0 : Fin 1) c) (idx_main_v84 (idx_main_v85 (ix2 r c))) (by
    show (S64.rowMajor (idx_main_v84 (idx_main_v85 (ix2 r c)))).val = (Cert.KernelIdeal.S1x64.rowMajor (ix2 (0 : Fin 1) c)).val
    rw [Shape.rowMajor_val_one, Shape.rowMajor_val_two]
    show c.val = 0 * 64 + c.val
    omega)).symm

/-! ## The stages that end the three layers -/

/-- The first hidden layer's stage is the hidden layer of the arguments. -/
theorem hidden0_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v31 (F := Ideal) x0 x1 x2 x3 x4 = Cert.KernelIdeal.Net.hidden x0 (Cert.KernelIdeal.Net.srcOf x1) (Cert.KernelIdeal.Net.dstOf x1) x2 x3 x4 := by
  funext i
  obtain ⟨r, c, rfl⟩ : ∃ (r : Fin 100000) (c : Fin 128), i = ix2 r c := ⟨i 0, i 1, eq_ix2 i⟩
  rw [val_main_v31_apply, val_main_v30_apply, val_main_v27_apply, val_main_v24_apply, val_main_v26_apply, val_main_v29_apply,
    val_main_v28_apply, val_main_call0_v0_apply, val_main_call0_cst_apply, mean0_eq]
  unfold Cert.KernelIdeal.Net.hidden Layer.affineRelu
  refine congrArg (max · (Ideal.ofBits .f32 0x00000000#32)) ?_
  exact Layer.affineAt_of_terms _ x0 _ _ _ r c (lidx_main_v24 (ix2 r c)) (lidx_main_v26 (ix2 r c)) (ridx_main_v24 (ix2 r c)) (ridx_main_v26 (ix2 r c)) _
    (fun k => funext fun a => by match a with | ⟨0, _⟩ => rfl | ⟨1, _⟩ => rfl)
    (fun k => funext fun a => by match a with | ⟨0, _⟩ => rfl | ⟨1, _⟩ => rfl)
    (fun k => funext fun a => by match a with | ⟨0, _⟩ => rfl | ⟨1, _⟩ => rfl)
    (fun k => funext fun a => by match a with | ⟨0, _⟩ => rfl | ⟨1, _⟩ => rfl)
    (bias128_at x4 r c)

/-- The second hidden layer's stage is the hidden layer of the first's stage. -/
theorem hidden1_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v59 (F := Ideal) x0 x1 x2 x3 x4 x5 x6 x7
      = Cert.KernelIdeal.Net.hidden (val_main_v31 (F := Ideal) x0 x1 x2 x3 x4) (Cert.KernelIdeal.Net.srcOf x1) (Cert.KernelIdeal.Net.dstOf x1) x5 x6 x7 := by
  funext i
  obtain ⟨r, c, rfl⟩ : ∃ (r : Fin 100000) (c : Fin 128), i = ix2 r c := ⟨i 0, i 1, eq_ix2 i⟩
  rw [val_main_v59_apply, val_main_v58_apply, val_main_v55_apply, val_main_v52_apply, val_main_v54_apply, val_main_v57_apply,
    val_main_v56_apply, val_main_call1_v0_apply, val_main_call1_cst_apply, mean1_eq]
  unfold Cert.KernelIdeal.Net.hidden Layer.affineRelu
  refine congrArg (max · (Ideal.ofBits .f32 0x00000000#32)) ?_
  exact Layer.affineAt_of_terms _ (val_main_v31 (F := Ideal) x0 x1 x2 x3 x4) _ _ _ r c (lidx_main_v52 (ix2 r c)) (lidx_main_v54 (ix2 r c)) (ridx_main_v52 (ix2 r c)) (ridx_main_v54 (ix2 r c)) _
    (fun k => funext fun a => by match a with | ⟨0, _⟩ => rfl | ⟨1, _⟩ => rfl)
    (fun k => funext fun a => by match a with | ⟨0, _⟩ => rfl | ⟨1, _⟩ => rfl)
    (fun k => funext fun a => by match a with | ⟨0, _⟩ => rfl | ⟨1, _⟩ => rfl)
    (fun k => funext fun a => by match a with | ⟨0, _⟩ => rfl | ⟨1, _⟩ => rfl)
    (bias128_at x7 r c)

/-- The result's stage is the last layer of the second hidden layer's stage. -/
theorem last_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 x9 : (⟨S64x128, .f32⟩ : BufTy).Contents (Elt Ideal)) (x10 : (⟨S64, .f32⟩ : BufTy).Contents (Elt Ideal)) :
    val_main_v86 (F := Ideal) x0 x1 x2 x3 x4 x5 x6 x7 x8 x9 x10
      = Cert.KernelIdeal.Net.last (val_main_v59 (F := Ideal) x0 x1 x2 x3 x4 x5 x6 x7) (Cert.KernelIdeal.Net.srcOf x1) (Cert.KernelIdeal.Net.dstOf x1) x8 x9 x10 := by
  funext i
  obtain ⟨r, c, rfl⟩ : ∃ (r : Fin 100000) (c : Fin 64), i = ix2 r c := ⟨i 0, i 1, eq_ix2 i⟩
  rw [val_main_v86_apply, val_main_v83_apply, val_main_v80_apply, val_main_v82_apply, val_main_v85_apply, val_main_v84_apply, mean2_eq]
  unfold Cert.KernelIdeal.Net.last Layer.affine
  exact Layer.affineAt_of_terms _ (val_main_v59 (F := Ideal) x0 x1 x2 x3 x4 x5 x6 x7) _ _ _ r c (lidx_main_v80 (ix2 r c)) (lidx_main_v82 (ix2 r c)) (ridx_main_v80 (ix2 r c)) (ridx_main_v82 (ix2 r c)) _
    (fun k => funext fun a => by match a with | ⟨0, _⟩ => rfl | ⟨1, _⟩ => rfl)
    (fun k => funext fun a => by match a with | ⟨0, _⟩ => rfl | ⟨1, _⟩ => rfl)
    (fun k => funext fun a => by match a with | ⟨0, _⟩ => rfl | ⟨1, _⟩ => rfl)
    (fun k => funext fun a => by match a with | ⟨0, _⟩ => rfl | ⟨1, _⟩ => rfl)
    (bias64_at x10 r c)

/-! ## The result -/

/-- The reference's result term is the network of its arguments. -/
theorem result_eq (m : (ℓ : Loc nD τ sig) → Buf (Elt Ideal) ℓ) (c : Dev nD) :
    Cert.ReferenceIdeal.Value.res_main_v86 m c
      = Cert.KernelIdeal.Net.net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  rw [val_main_v86_eq, last_eq, hidden1_eq, hidden0_eq]
  rfl

end Cert.ReferenceIdeal.RefValue

end
-- ==== Proof.lean ====
/-
  A three-layer mean-aggregating graph convolution (two hidden layers of 128 features with a clamp at zero, a
  last layer of 64 features without one), computed two ways over 100000 nodes and 1600000 edges, is one
  function of its eleven arguments over the extended reals.

  Both programs form each layer's neighbour means on the host by the same chain of operations (gather the
  source rows, add them into the destination rows, count, divide). They differ in the dense part. The kernel
  program transposes the weights once, and each layer is a grid of 20 steps over tiles of 5000 rows: a step
  multiplies its tile of means and its tile of features by the resident weight matrices (after a cast to a
  narrower float format, the identity here), adds the two products and the bias row, and clamps; the reference
  multiplies the whole arrays on the host. An entry of a layer looks at one row of the means and one row of
  the features, so a tile's entry is the whole layer's entry at that row, and the 20 tiles partition the rows:
  each grid leaves the layer of Spec.lean in its output array (Hidden0, Hidden1, Last), and the result array
  read back through the program's six boundaries is the network of Network.lean at the arguments
  (KernelValue). The reference's products read at an entry are the same two sums and its spread bias the same
  third term (RefValue). No law beyond the re-indexing of a sum is used, so the finiteness of the inputs is
  never opened.

  The frames: the two kernel programs' are the generated frame certificates; the reference's is its generated
  run with the result dropped. The idealization rewrote nothing, so there is nothing to preserve.
-/
import proofs.«108933_j86199993631208_1_alg».proof.Defs
import proofs.«108933_j86199993631208_1_alg».proof.Proof.Gen.Kernel
import proofs.«108933_j86199993631208_1_alg».proof.Proof.Gen.Kernel.Frame
import proofs.«108933_j86199993631208_1_alg».proof.Proof.Gen.KernelIdeal
import proofs.«108933_j86199993631208_1_alg».proof.Proof.Gen.KernelIdeal.Frame
import proofs.«108933_j86199993631208_1_alg».proof.Proof.Gen.ReferenceIdeal
import proofs.«108933_j86199993631208_1_alg».proof.Proof.Gen.Pre_finite_inputs
import proofs.«108933_j86199993631208_1_alg».proof.Proof.Gen.ReferenceIdeal.Run
import proofs.«108933_j86199993631208_1_alg».proof.Proof.Gen.ReferenceIdeal.Read
import proofs.«108933_j86199993631208_1_alg».proof.Proof.KernelValue
import proofs.«108933_j86199993631208_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the eleven arguments both programs end with the network of those arguments in
    their result arrays. -/
theorem algebraic : Cert.algebraic_KernelIdeal_ReferenceIdeal := by
  intro m ρ m' ρ' _ hagree
  refine ⟨fun c => Cert.KernelIdeal.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.RefValue.result_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
